-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩
abbrev S1x640000 : Shape := ⟨2, ![1, 640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000

variable [Facts]

def fn_part2 {F : FTy → Type} [FloatOps F] (main_arg1 : IVec S2x640000 32) (main_v28 : IVec S_ 1) (main_v33 : IVec S_ 1) : IVec S_ 1 :=
  let main_v34 : IVec S_ 1 := andi main_v28 main_v33
  let main_v35 : IVec S1x640000 32 := (extractStridedSlice S1x640000 ![0, 0] · slices_S2x640000_S1x640000_0_0) main_arg1
  let main_v36 : IVec S640000 32 := shapeCast S640000 main_v35 shapeCasts_S1x640000_S640000
  let main_c_12 : IVec S_ 32 := constantI S_ 32 100000#32
  let main_v37 : IVec S640000 32 := broadcastInDim S640000 ![] bcast_S_S640000 main_c_12
  let main_v38 : IVec S640000 1 := cmpi .slt main_v36 main_v37
  let main_c_13 : IVec S_ 1 := constantI S_ 1 1#1
  let main_v39 : IVec S_ 1 := (fun x v => Host.reduce IntOp.andi x v reducesTo_S640000_S_d0 h_S_) main_v38 main_c_13
  let main_v40 : IVec S_ 1 := andi main_v34 main_v39
  main_v40

def fn_part1 {F : FTy → Type} [FloatOps F] (main_arg1 : IVec S2x640000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x640000 32 := (extractStridedSlice S1x640000 ![0, 0] · slices_S2x640000_S1x640000_0_0) main_arg1
  let main_v30 : IVec S640000 32 := shapeCast S640000 main_v29 shapeCasts_S1x640000_S640000
  let main_c_10 : IVec S_ 32 := constantI S_ 32 4294867296#32
  let main_v31 : IVec S640000 32 := broadcastInDim S640000 ![] bcast_S_S640000 main_c_10
  let main_v32 : IVec S640000 1 := cmpi .sge main_v30 main_v31
  let main_c_11 : IVec S_ 1 := constantI S_ 1 1#1
  let main_v33 : IVec S_ 1 := (fun x v => Host.reduce IntOp.andi x v reducesTo_S640000_S_d0 h_S_) main_v32 main_c_11
  fn_part2 (F := F) main_arg1 main_v28 main_v33

def fn {F : FTy → Type} [FloatOps F] (main_arg0 : FVec F S100000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S1x640000 : Shape := ⟨2, ![1, 640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S5000x128 : Shape := ⟨2, ![5000, 128]⟩

abbrev nBuf : Space → Nat
  | .hbm => 47
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S100000x128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S1, .i32⟩
  | .hbm, ⟨23, _⟩ => ⟨S_, .i32⟩
  | .hbm, ⟨24, _⟩ => ⟨S640000x1, .i32⟩
  | .hbm, ⟨25, _⟩ => ⟨S640000x1, .i1⟩
  | .hbm, ⟨26, _⟩ => ⟨S1x1, .i32⟩
  | .hbm, ⟨27, _⟩ => ⟨S640000x1, .i32⟩
  | .hbm, ⟨28, _⟩ => ⟨S640000x1, .i1⟩
  | .hbm, ⟨29, _⟩ => ⟨S640000x1, .i1⟩
  | .hbm, ⟨30, _⟩ => ⟨S_, .i1⟩
  | .hbm, ⟨31, _⟩ => ⟨S640000, .i1⟩
  | .hbm, ⟨32, _⟩ => ⟨S640000x128, .f32⟩
  | .hbm, ⟨33, _⟩ => ⟨S640000x128, .i1⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S640000x1, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S128x128, .f32⟩
  | .hbm, ⟨45, _⟩ => ⟨S1x128, .f32⟩
  | .hbm, ⟨46, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S640000x1, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.LibLinearRows.lean ====
/-
  A dense layer read row by row, over the extended reals.

  `lin X Wt b` is the map that sends a matrix `X` of `R` rows and 128 columns to `X · Wt + b`: entry `(p, j)` is the
  sum over `k` of `X (p, k) * Wt (k, j)`, plus `b (0, j)` (the weight already transposed to "inputs by outputs", the
  bias one row). Every row of the result depends on the same row of `X` only, so the layer of a block of consecutive
  rows is that block of the layer of the whole matrix (`lin_rows`), and two matrices that agree row by row have the
  same layer there. `relu` is the maximum with zero.
-/
import Idealize.ShloMosaic.PureOps.Ideal
import Idealize.ShloMosaic.Lib.ValueIdx

noncomputable section

namespace LinearRows

open Idealize.ShloMosaic Idealize.ShloMosaic.ValueIdx

/-- `X · Wt + b` on a matrix of `R` rows: entry `(p, j)` is `∑ k, X (p, k) * Wt (k, j) + b (0, j)`. -/
def lin {R : ℕ} (X : (⟨2, ![R, 128]⟩ : Shape).Idx → EReal) (Wt : (⟨2, ![128, 128]⟩ : Shape).Idx → EReal)
    (b : (⟨2, ![1, 128]⟩ : Shape).Idx → EReal) : (⟨2, ![R, 128]⟩ : Shape).Idx → EReal :=
  fun i => (∑ k : Fin 128, X (ix2 (⟨(i 0).val, idx2_lt0 i⟩ : Fin R) k) * Wt (ix2 k (⟨(i 1).val, idx2_lt1 i⟩ : Fin 128)))
    + b (ix2 (0 : Fin 1) (⟨(i 1).val, idx2_lt1 i⟩ : Fin 128))

/-- The layer at the entry of row `p` and column `j`. -/
theorem lin_apply {R : ℕ} (X : (⟨2, ![R, 128]⟩ : Shape).Idx → EReal) (Wt : (⟨2, ![128, 128]⟩ : Shape).Idx → EReal)
    (b : (⟨2, ![1, 128]⟩ : Shape).Idx → EReal) (p : Fin R) (j : Fin 128) :
    lin X Wt b (ix2 p j) = (∑ k : Fin 128, X (ix2 p k) * Wt (ix2 k j)) + b (ix2 (0 : Fin 1) j) := rfl

/-- Rows are independent: if row `p` of `Y` is row `q` of `X`, the layer of `Y` at `(p, j)` is the layer of `X` at
    `(q, j)`, whatever the two matrices' heights. -/
theorem lin_row_congr {R R' : ℕ} (X : (⟨2, ![R, 128]⟩ : Shape).Idx → EReal) (Y : (⟨2, ![R', 128]⟩ : Shape).Idx → EReal)
    (Wt : (⟨2, ![128, 128]⟩ : Shape).Idx → EReal) (b : (⟨2, ![1, 128]⟩ : Shape).Idx → EReal) (p : Fin R') (q : Fin R)
    (h : ∀ k : Fin 128, Y (ix2 p k) = X (ix2 q k)) (j : Fin 128) :
    lin Y Wt b (ix2 p j) = lin X Wt b (ix2 q j) := by
  rw [lin_apply, lin_apply]
  exact congrArg (· + b (ix2 (0 : Fin 1) j)) (Finset.sum_congr rfl fun k _ => by rw [h k])

/-- A block of consecutive rows: if `Y` holds the rows of `X` from row `o` on, with the same weight and bias, the layer
    of `Y` at `y` is the layer of `X` at the entry `o` rows further down in the same column. -/
theorem lin_block {R B : ℕ} (X : (⟨2, ![R, 128]⟩ : Shape).Idx → EReal) (Wt : (⟨2, ![128, 128]⟩ : Shape).Idx → EReal)
    (b : (⟨2, ![1, 128]⟩ : Shape).Idx → EReal) (Y : (⟨2, ![B, 128]⟩ : Shape).Idx → EReal)
    (Wt' : (⟨2, ![128, 128]⟩ : Shape).Idx → EReal) (b' : (⟨2, ![1, 128]⟩ : Shape).Idx → EReal) (o : ℕ)
    (hY : ∀ (p : Fin B) (k : Fin 128) (h : o + p.val < R), Y (ix2 p k) = X (ix2 (⟨o + p.val, h⟩ : Fin R) k))
    (hW : Wt' = Wt) (hb : b' = b) (y : (⟨2, ![B, 128]⟩ : Shape).Idx) (i : (⟨2, ![R, 128]⟩ : Shape).Idx)
    (h0 : (i 0).val = o + (y 0).val) (h1 : (i 1).val = (y 1).val) :
    lin Y Wt' b' y = lin X Wt b i := by
  subst hW hb
  obtain ⟨p, j, rfl⟩ : ∃ (p : Fin B) (j : Fin 128), y = ix2 p j := ⟨y 0, y 1, eq_ix2 y⟩
  obtain ⟨q, j', rfl⟩ : ∃ (q : Fin R) (j' : Fin 128), i = ix2 q j' := ⟨i 0, i 1, eq_ix2 i⟩
  have hj : j' = j := Fin.ext h1
  subst hj
  have h0' : q.val = o + p.val := h0
  have hlt : o + p.val < R := by have := q.isLt; omega
  have hq : q = ⟨o + p.val, hlt⟩ := Fin.ext h0'
  rw [hq]
  exact lin_row_congr X Y Wt' b' p _ (fun k => hY p k hlt) j'

/-- The layer depends on its three operands entry by entry. -/
theorem lin_congr {R : ℕ} {X X' : (⟨2, ![R, 128]⟩ : Shape).Idx → EReal} {Wt Wt' : (⟨2, ![128, 128]⟩ : Shape).Idx → EReal}
    {b b' : (⟨2, ![1, 128]⟩ : Shape).Idx → EReal} (hX : X = X') (hW : Wt = Wt') (hb : b = b') :
    lin X Wt b = lin X' Wt' b' := by rw [hX, hW, hb]

/-- `max x 0`, entry by entry. -/
def relu {s : Shape} (x : s.Idx → EReal) : s.Idx → EReal := fun i => max (x i) 0

theorem relu_apply {s : Shape} (x : s.Idx → EReal) (i : s.Idx) : relu x i = max (x i) 0 := rfl

end LinearRows

end
-- ==== Proof.EncBody.lean ====
/-
  The encoder's body at an entry.

  The body of the first kernel takes a block of 10000 rows of the node features, the transposed encoder weight and
  the bias row, multiplies the rows by the weight on the matrix unit (from a zero accumulator) and adds the bias. A
  change of float format is the identity on the extended reals, so its stored value is the dense layer `lin` of the
  three loaded values: entry `(p, j)` is `∑ k, x (p, k) * w (k, j) + b (0, j)`.
-/
import proofs.«406836_j87514253623371_3_alg».proof.Proof.Gen.KernelIdeal.Skeleton
import proofs.«406836_j87514253623371_3_alg».proof.Proof.LibLinearRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EncBody

open Cert.KernelIdeal Cert.KernelIdeal.Gen Idealize.ShloMosaic Idealize.ShloMosaic.ValueIdx LinearRows

/-! The operand indices of the block's matrix product: the left operand is read at (row, k), the right at (k, column). -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product from a zero accumulator, at the entry of row `p` and column `j`: the sum over the
    128 contracted positions of the row's entry times the weight's. -/
theorem matmul_apply (x : FVec Ideal S10000x128 .bf16) (w : FVec Ideal S128x128 .bf16) (p : Fin 10000) (j : Fin 128) :
    matmul (F := Ideal) dot_S10000x128_S128x128_S10000x128_1_0_0_1_n_n none x w (constant (F := Ideal) S10000x128 .f32 0x00000000#32) (ix2 p j)
      = ∑ k : Fin 128, x (ix2 p k) * w (ix2 k j) := by
  show FloatOps.matmul dot_S10000x128_S128x128_S10000x128_1_0_0_1_n_n none x w (constant S10000x128 .f32 0x00000000#32) (ix2 p j) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p j) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p j) ((ValueIdx.contrEquiv1 dot_S10000x128_S128x128_S10000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- The value the body stores is the dense layer of the three values it loads. -/
theorem pay_eq (x : Vec Ideal S10000x128 .f32) (w : Vec Ideal S128x128 .f32) (b : Vec Ideal S1x128 .f32) :
    k0_pay1 (F := Ideal) x w b = lin x w b := by
  funext i
  obtain ⟨p, j, rfl⟩ : ∃ (p : Fin 10000) (j : Fin 128), i = ix2 p j := ⟨i 0, i 1, eq_ix2 i⟩
  rw [lin_apply]
  unfold k0_pay1
  show matmul (F := Ideal) dot_S10000x128_S128x128_S10000x128_1_0_0_1_n_n none (truncf (F := Ideal) .bf16 x bitsLt_bf16_f32)
        (truncf (F := Ideal) .bf16 (shapeCast S128x128 w shapeCasts_S128x128_S128x128) bitsLt_bf16_f32) (constant (F := Ideal) S10000x128 .f32 0x00000000#32) (ix2 p j)
      + broadcastTo S10000x128 (shapeCast S1x128 b shapeCasts_S1x128_S1x128) broadcasts_S1x128_S10000x128 (ix2 p j) = _
  rw [matmul_apply, shapeCast_self, shapeCast_self, broadcastTo_1b_ab_apply]
  rfl

end Cert.KernelIdeal.EncBody

end
-- ==== Proof.EncArray.lean ====
/-
  The encoder's result array.

  The first kernel runs over ten grid points; point `t` loads rows `10000·t … 10000·t + 9999` of the node features, the
  whole transposed weight and the bias row, and writes the dense layer of that block of rows back to the same rows of
  its result. The rows of a dense layer are independent, so what point `t` writes is block `t` of the dense layer of
  the WHOLE feature matrix; the ten blocks tile the 100000 rows, so after the run the result array is that layer.
  Stated for any contents `V` of the buffers when the region is entered.
-/
import proofs.«406836_j87514253623371_3_alg».proof.Proof.Gen.KernelIdeal.Frame
import proofs.«406836_j87514253623371_3_alg».proof.Proof.EncBody
import Idealize.ShloMosaic.Lib.Pipeline.Value

set_option maxRecDepth 16384

noncomputable section

namespace Cert.KernelIdeal.EncArray

open Cert.KernelIdeal Cert.KernelIdeal.Gen Idealize.ShloMosaic Idealize.ShloMosaic.TcCoe Idealize.ShloMosaic.ValueIdx LinearRows
open Idealize.SL.Sem
open Idealize.ShloMosaic.Pipeline (Dat)

variable (V : (c : Dev nD) → (b : Ref sig .tc) → Buf (Elt Ideal) ((c : Thread nD τ).loc b))

/-- The three arrays the region reads, as it finds them: the node features, the transposed weight, the bias row. -/
abbrev feat (c : Dev nD) : Vec Ideal S100000x128 .f32 := V c main_arg0
abbrev wT (c : Dev nD) : Vec Ideal S128x128 .f32 := V c main_v0
abbrev bias (c : Dev nD) : Vec Ideal S1x128 .f32 := V c main_v1

theorem hz : (![0, 0] : Fin 2 → Nat) = fun _ => 0 := funext fun a => by fin_cases a <;> rfl

/-- The index maps over the grid: the features' and the result's block is block row `t`; the weight and the bias have
    one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the dense layer of the whole feature matrix. -/
theorem flushed_eq (c : Dev nD) (t : Fin cfg0.N) :
    (dat0 V c).flushed 3 t = ((cfg0.win 3).blk t).view.read (Elt Ideal) (lin (feat V c) (wT V c) (bias V c)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  rw [EncBody.pay_eq]
  obtain ⟨e00, e01, e10, e11, e20, e21, e30, e31⟩ := idx_facts t
  funext y
  show lin (iblk0 V c 0 t) (iblk0 V c 1 t) (iblk0 V c 2 t) y
    = lin (feat V c) (wT V c) (bias V c) (((cfg0.win 3).blk t).view.emb y)
  refine lin_block (feat V c) (wT V c) (bias V c) _ _ _ (t.val * 10000) ?_ ?_ ?_ y _ ?_ ?_
  · intro p k h
    show V c main_arg0 (((cfg0.win 0).blk t).view.emb (ix2 p k)) = V c main_arg0 (ix2 ⟨t.val * 10000 + p.val, h⟩ k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · funext z
    show V c main_v0 (((cfg0.win 1).blk t).view.emb z) = V c main_v0 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V c main_v1 (((cfg0.win 2).blk t).view.emb z) = V c main_v1 z
    refine congrArg _ (funext fun a => Fin.ext ?_)
    match a with
    | ⟨0, _⟩ => show win0_2.index t (0 : Fin 2) * 1 + 1 * (z 0).val = (z 0).val; omega
    | ⟨1, _⟩ => show win0_2.index t (1 : Fin 2) * 128 + 1 * (z 1).val = (z 1).val; omega
  · show win0_3.index t (0 : Fin 2) * 10000 + 1 * (y 0).val = t.val * 10000 + (y 0).val; omega
  · show win0_3.index t (1 : Fin 2) * 128 + 1 * (y 1).val = (y 1).val; omega

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v2).slice (win0_3.rect t)).set ↔ _
  rw [View.set_slice_whole, Rect.mem_set_unit]
  exact Iff.rfl

/-- Every row is in some point's block: row `r` in the block of point `r / 10000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  have ht : (i 0).val / 10000 < grid0.N := by rw [hN]; omega
  obtain ⟨e00, e01, e10, e11, e20, e21, e30, e31⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    have e : win0_3.index ⟨(i 0).val / 10000, ht⟩ (0 : Fin 2) = (i 0).val / 10000 := e30
    omega
  | ⟨1, _⟩ =>
    show win0_3.index ⟨(i 0).val / 10000, ht⟩ (1 : Fin 2) * 128 ≤ (i 1).val ∧ (i 1).val < win0_3.index ⟨(i 0).val / 10000, ht⟩ (1 : Fin 2) * 128 + 128
    omega

/-- The result array after the region: the dense layer of the feature matrix as the region found it. -/
theorem final (c : Dev nD) : (dat0 V c).arrAt 3 cfg0.N = lin (feat V c) (wT V c) (bias V c) :=
  (dat0 V c).arrAt_eq_of_cover 3 _ (fun t _ => flushed_eq V c t) (cover)

end Cert.KernelIdeal.EncArray

end
-- ==== Proof.UpdBody.lean ====
/-
  The update's body at an entry.

  The body of the second kernel takes a block of 5000 rows of the aggregated messages and the same rows of the encoded
  features, adds them, multiplies the sum's rows by the transposed update weight on the matrix unit (from a zero
  accumulator), adds the bias row and takes the maximum with zero. A change of float format is the identity on the
  extended reals, so its stored value is `relu` of the dense layer `lin` of the entrywise sum of the two blocks.
-/
import proofs.«406836_j87514253623371_3_alg».proof.Proof.Gen.KernelIdeal.Skeleton
import proofs.«406836_j87514253623371_3_alg».proof.Proof.LibLinearRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdBody

open Cert.KernelIdeal Cert.KernelIdeal.Gen Idealize.ShloMosaic Idealize.ShloMosaic.ValueIdx LinearRows

/-! The operand indices of the block's matrix product: the left operand is read at (row, k), the right at (k, column). -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product from a zero accumulator, at the entry of row `p` and column `j`: the sum over the
    128 contracted positions of the row's entry times the weight's. -/
theorem matmul_apply (x : FVec Ideal S5000x128 .bf16) (w : FVec Ideal S128x128 .bf16) (p : Fin 5000) (j : Fin 128) :
    matmul (F := Ideal) dot_S5000x128_S128x128_S5000x128_1_0_0_1_n_n none x w (constant (F := Ideal) S5000x128 .f32 0x00000000#32) (ix2 p j)
      = ∑ k : Fin 128, x (ix2 p k) * w (ix2 k j) := by
  show FloatOps.matmul dot_S5000x128_S128x128_S5000x128_1_0_0_1_n_n none x w (constant S5000x128 .f32 0x00000000#32) (ix2 p j) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- The value the body stores: `relu` of the dense layer of the sum of the two loaded row blocks. -/
theorem pay_eq (x0 x1 : Vec Ideal S5000x128 .f32) (w : Vec Ideal S128x128 .f32) (b : Vec Ideal S1x128 .f32) :
    k1_pay1 (F := Ideal) x0 x1 w b = relu (lin (fun i => x0 i + x1 i) w b) := by
  funext i
  obtain ⟨p, j, rfl⟩ : ∃ (p : Fin 5000) (j : Fin 128), i = ix2 p j := ⟨i 0, i 1, eq_ix2 i⟩
  rw [relu_apply, lin_apply]
  unfold k1_pay1
  show max (matmul (F := Ideal) dot_S5000x128_S128x128_S5000x128_1_0_0_1_n_n none
          (truncf (F := Ideal) .bf16 (addf (F := Ideal) (shapeCast S5000x128 x0 shapeCasts_S5000x128_S5000x128) (shapeCast S5000x128 x1 shapeCasts_S5000x128_S5000x128)) bitsLt_bf16_f32)
          (truncf (F := Ideal) .bf16 (shapeCast S128x128 w shapeCasts_S128x128_S128x128) bitsLt_bf16_f32) (constant (F := Ideal) S5000x128 .f32 0x00000000#32) (ix2 p j)
        + broadcastTo S5000x128 (shapeCast S1x128 b shapeCasts_S1x128_S1x128) broadcasts_S1x128_S5000x128 (ix2 p j))
      (Ideal.ofBits .f32 0x00000000#32) = _
  rw [matmul_apply, shapeCast_self, shapeCast_self, shapeCast_self, shapeCast_self, broadcastTo_1b_ab_apply, Ideal.ofBits_zero_f32]
  rfl

end Cert.KernelIdeal.UpdBody

end
-- ==== Proof.UpdArray.lean ====
/-
  The update's result array.

  The second kernel runs over twenty grid points; point `t` loads rows `5000·t … 5000·t + 4999` of the aggregated
  messages and of the encoded features, the whole transposed update weight and the bias row, and writes `relu` of the
  dense layer of the two blocks' sum back to the same rows of its result. Rows are independent, so what point `t`
  writes is block `t` of `relu (lin (agg + enc) w b)` taken over the WHOLE arrays; the twenty blocks tile the 100000
  rows, so after the run the result array is that function of the four arrays the region found.
-/
import proofs.«406836_j87514253623371_3_alg».proof.Proof.Gen.KernelIdeal.Frame
import proofs.«406836_j87514253623371_3_alg».proof.Proof.UpdBody
import Idealize.ShloMosaic.Lib.Pipeline.Value

set_option maxRecDepth 16384

noncomputable section

namespace Cert.KernelIdeal.UpdArray

open Cert.KernelIdeal Cert.KernelIdeal.Gen Idealize.ShloMosaic Idealize.ShloMosaic.TcCoe Idealize.ShloMosaic.ValueIdx LinearRows
open Idealize.SL.Sem
open Idealize.ShloMosaic.Pipeline (Dat)

variable (V : (c : Dev nD) → (b : Ref sig .tc) → Buf (Elt Ideal) ((c : Thread nD τ).loc b))

/-- The four arrays the region reads, as it finds them: the aggregated messages, the encoded features, the transposed
    update weight, the bias row. -/
abbrev agg (c : Dev nD) : Vec Ideal S100000x128 .f32 := V c main_v13
abbrev enc (c : Dev nD) : Vec Ideal S100000x128 .f32 := V c main_v2
abbrev wT (c : Dev nD) : Vec Ideal S128x128 .f32 := V c main_v14
abbrev bias (c : Dev nD) : Vec Ideal S1x128 .f32 := V c main_v15

/-- The residual sum the layer is applied to, entry by entry. -/
abbrev resid (c : Dev nD) : (⟨2, ![100000, 128]⟩ : Shape).Idx → EReal := fun i => agg V c i + enc V c i

/-- The two row blocks point `t` loads, at their literal types. -/
abbrev aggBlk (c : Dev nD) (t : Fin cfg1.N) : Vec Ideal S5000x128 .f32 := iblk1 V c 0 t
abbrev encBlk (c : Dev nD) (t : Fin cfg1.N) : Vec Ideal S5000x128 .f32 := iblk1 V c 1 t

theorem hz : (![0, 0] : Fin 2 → Nat) = fun _ => 0 := funext fun a => by fin_cases a <;> rfl

/-- The index maps over the grid: the two row-blocked inputs' and the result's block is block row `t`; the weight and
    the bias have one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `relu` of the dense layer of the whole residual sum. -/
theorem flushed_eq (c : Dev nD) (t : Fin cfg1.N) :
    (dat1 V c).flushed 4 t = ((cfg1.win 4).blk t).view.read (Elt Ideal) (relu (lin (resid V c) (wT V c) (bias V c))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [UpdBody.pay_eq]
  obtain ⟨e00, e01, e10, e11, e20, e21, e30, e31, e40, e41⟩ := idx_facts t
  funext y
  show max (lin (fun i => aggBlk V c t i + encBlk V c t i) (iblk1 V c 2 t) (iblk1 V c 3 t) y) 0
    = max (lin (resid V c) (wT V c) (bias V c) (((cfg1.win 4).blk t).view.emb y)) 0
  refine congrArg (max · 0) ?_
  refine lin_block (resid V c) (wT V c) (bias V c) _ _ _ (t.val * 5000) ?_ ?_ ?_ y _ ?_ ?_
  · intro p k h
    show agg V c (((cfg1.win 0).blk t).view.emb (ix2 p k)) + enc V c (((cfg1.win 1).blk t).view.emb (ix2 p k))
      = agg V c (ix2 ⟨t.val * 5000 + p.val, h⟩ k) + enc V c (ix2 ⟨t.val * 5000 + p.val, h⟩ k)
    have h0 : ((cfg1.win 0).blk t).view.emb (ix2 p k) = ix2 ⟨t.val * 5000 + p.val, h⟩ k := by
      funext a; apply Fin.ext
      match a with
      | ⟨0, _⟩ => show win1_0.index t (0 : Fin 2) * 5000 + 1 * p.val = t.val * 5000 + p.val; omega
      | ⟨1, _⟩ => show win1_0.index t (1 : Fin 2) * 128 + 1 * k.val = k.val; omega
    have h1 : ((cfg1.win 1).blk t).view.emb (ix2 p k) = ix2 ⟨t.val * 5000 + p.val, h⟩ k := by
      funext a; apply Fin.ext
      match a with
      | ⟨0, _⟩ => show win1_1.index t (0 : Fin 2) * 5000 + 1 * p.val = t.val * 5000 + p.val; omega
      | ⟨1, _⟩ => show win1_1.index t (1 : Fin 2) * 128 + 1 * k.val = k.val; omega
    rw [h0, h1]
  · funext z
    show V c main_v14 (((cfg1.win 2).blk t).view.emb z) = V c main_v14 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · funext z
    show V c main_v15 (((cfg1.win 3).blk t).view.emb z) = V c main_v15 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 128 + 1 * (z 1).val = (z 1).val; omega
  · show win1_4.index t (0 : Fin 2) * 5000 + 1 * (y 0).val = t.val * 5000 + (y 0).val; omega
  · show win1_4.index t (1 : Fin 2) * 128 + 1 * (y 1).val = (y 1).val; omega

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v16).slice (win1_4.rect t)).set ↔ _
  rw [View.set_slice_whole, Rect.mem_set_unit]
  exact Iff.rfl

/-- Every row is in some point's block: row `r` in the block of point `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨e00, e01, e10, e11, e20, e21, e30, e31, e40, e41⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    have e : win1_4.index ⟨(i 0).val / 5000, ht⟩ (0 : Fin 2) = (i 0).val / 5000 := e40
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    omega

/-- The result array after the region: `relu` of the dense layer of the residual sum, of the arrays as the region
    found them. -/
theorem final (c : Dev nD) : (dat1 V c).arrAt 4 cfg1.N = relu (lin (resid V c) (wT V c) (bias V c)) :=
  (dat1 V c).arrAt_eq_of_cover 4 _ (fun t _ => flushed_eq V c t) (cover)

end Cert.KernelIdeal.UpdArray

end
-- ==== Proof.KernelHost.lean ====
/-
  The kernel program's host operations, read back.

  Around its two kernels the program runs host operations: before the first, the encoder weight is transposed and its
  bias reshaped to one row; between the two, the edge list is cut into its source and destination rows, the encoder's
  result `He` is gathered at the source indices by `jnp.take` — negative indices wrapped by the table's height, then a
  row of the fill value wherever the wrapped index is outside `[0, 99999]` —, scaled by the edge weights and added into
  the destination rows from zero; the update weight is transposed and its bias reshaped. Each buffer the second kernel
  reads is named here as that function of the launch memory and of the first kernel's result array.
-/
import proofs.«406836_j87514253623371_3_alg».proof.Proof.Gen.KernelIdeal.Frame
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The host chain between the kernels, as functions -/

/-- Row `r` of the edge list as a vector of 640000 indices (`r = 0`: sources, `r = 1`: destinations). -/
def srcIdx (x1 : IVec S2x640000 32) : IVec S640000 32 :=
  shapeCast S640000 (extractStridedSlice S1x640000 ![0, 0] x1 slices_S2x640000_S1x640000_0_0) shapeCasts_S1x640000_S640000
def dstIdx (x1 : IVec S2x640000 32) : IVec S640000 32 :=
  shapeCast S640000 (extractStridedSlice S1x640000 ![1, 0] x1 slices_S2x640000_S1x640000_1_0) shapeCasts_S1x640000_S640000

/-- NumPy's wrap of negative indices by the table's height 100000, as a column of start indices. -/
def wrapIdx (u : IVec S640000 32) : IVec S640000x1 32 :=
  broadcastInDim S640000x1 ![0] bcast_S640000_S640000x1_0
    (select (cmpi .slt u (broadcastInDim S640000 ![] bcast_S_S640000 (constantI S_ 32 0#32)))
      (addi u (broadcastInDim S640000 ![] bcast_S_S640000 (constantI S_ 32 100000#32))) u)

/-- `jnp.take`'s in-bounds mask: per edge, whether the wrapped index is in `[0, 99999]`. -/
def inb (w : IVec S640000x1 32) : IVec S640000 1 :=
  Host.reduce IntOp.andi
    (andi (cmpi .sge w (broadcastInDim S640000x1 ![] bcast_S_S640000x1 (constantI S_ 32 0#32)))
      (cmpi .sle w (broadcastInDim S640000x1 ![0, 1] bcast_S1x1_S640000x1_0_1 (broadcastInDim S1x1 ![1] bcast_S1_S1x1_1 (constantI S1 32 99999#32)))))
    (constantI S_ 1 1#1) reducesTo_S640000x1_S640000_d1 h_S_

/-- `jnp.take(He, u, axis=0)`: the gathered rows where the wrapped index is in bounds, the fill value elsewhere. -/
def take (He : FVec F S100000x128 .f32) (u : IVec S640000 32) : FVec F S640000x128 .f32 :=
  select (broadcastInDim S640000x128 ![0] bcast_S640000_S640000x128_0 (inb (wrapIdx u)))
    (Host.gather gather_S100000x128_S640000x1_S640000x128_1_0_n_n_0_1_1128 He (wrapIdx u))
    (broadcastInDim S640000x128 ![] bcast_S_S640000x128 (constant S_ .f32 0x7FC00000#32))

/-- The aggregation, given what stands for the taken rows: scale by the edge weights, scatter-add from zero. -/
def scatterScaled (rows : FVec F S640000x128 .f32) (x1 : IVec S2x640000 32) (x2 : FVec F S640000 .f32) : FVec F S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 (dstIdx x1))
    (mulf (broadcastInDim S640000x128 ![0, 1] bcast_S640000x1_S640000x128_0_1 (broadcastInDim S640000x1 ![0] bcast_S640000_S640000x1_0 x2)) rows)

variable (m : (ℓ : Loc nD τ sig) → Buf (Elt F) ℓ) (ρ : Dev nD → PrngReg)

/-! ## The first kernel's operands -/

theorem V1_arg0 (c : Dev nD) : V1 m ρ c main_arg0 = m ((c : Thread nD τ).loc main_arg0) := by
  show StableHlo.after hostOps0 (W0 m ρ c) (Proc.devRef .tc main_arg0) = _
  after_results
theorem V1_v0 (c : Dev nD) : V1 m ρ c main_v0 = transpose S128x128 [1, 0] (m ((c : Thread nD τ).loc main_arg3)) transposes_S128x128_S128x128_1_0 := by
  show StableHlo.after hostOps0 (W0 m ρ c) (Proc.devRef .tc main_v0) = _
  after_results
theorem V1_v1 (c : Dev nD) : V1 m ρ c main_v1 = shapeCast S1x128 (m ((c : Thread nD τ).loc main_arg4)) shapeCasts_S128_S1x128 := by
  show StableHlo.after hostOps0 (W0 m ρ c) (Proc.devRef .tc main_v1) = _
  after_results
  rfl

/-! ## The launch memory's arguments, unchanged at the first kernel's exit -/

theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_arg1 (c : Dev nD) : W2 m ρ c (Proc.devRef .tc main_arg1) = m ((c : Thread nD τ).loc main_arg1) :=
  W2_arg m ρ c main_arg1 (by decide) (by after_results)
theorem W2_arg2 (c : Dev nD) : W2 m ρ c (Proc.devRef .tc main_arg2) = m ((c : Thread nD τ).loc main_arg2) :=
  W2_arg m ρ c main_arg2 (by decide) (by after_results)
theorem W2_arg5 (c : Dev nD) : W2 m ρ c (Proc.devRef .tc main_arg5) = m ((c : Thread nD τ).loc main_arg5) :=
  W2_arg m ρ c main_arg5 (by decide) (by after_results)
theorem W2_arg6 (c : Dev nD) : W2 m ρ c (Proc.devRef .tc main_arg6) = m ((c : Thread nD τ).loc main_arg6) :=
  W2_arg m ρ c main_arg6 (by decide) (by after_results)

/-! ## The second kernel's operands -/

set_option maxHeartbeats 1000000 in
set_option maxRecDepth 200000 in
theorem V5_v13 (c : Dev nD) :
    V5 m ρ c main_v13 = scatterScaled (take (W2 m ρ c (Proc.devRef .tc main_v2)) (srcIdx (W2 m ρ c (Proc.devRef .tc main_arg1))))
      (W2 m ρ c (Proc.devRef .tc main_arg1)) (W2 m ρ c (Proc.devRef .tc main_arg2)) := by
  dsimp only [V5, W5, W4, W3]
  after_results
  simp only [TRef.ofBuf, TRef.toBuf, cast_eq]
  rfl

set_option maxHeartbeats 1000000 in
theorem V5_v2 (c : Dev nD) : V5 m ρ c main_v2 = W2 m ρ c (Proc.devRef .tc main_v2) := by
  dsimp only [V5, W5, W4, W3]
  after_results

set_option maxHeartbeats 1000000 in
theorem V5_v14 (c : Dev nD) : V5 m ρ c main_v14 = transpose S128x128 [1, 0] (W2 m ρ c (Proc.devRef .tc main_arg5)) transposes_S128x128_S128x128_1_0 := by
  dsimp only [V5, W5, W4, W3]
  after_results

set_option maxHeartbeats 1000000 in
theorem V5_v15 (c : Dev nD) : V5 m ρ c main_v15 = shapeCast S1x128 (W2 m ρ c (Proc.devRef .tc main_arg6)) shapeCasts_S128_S1x128 := by
  dsimp only [V5, W5, W4, W3]
  after_results
  rfl

end Cert.KernelIdeal.Host

end
-- ==== Proof.IndexRange.lean ====
/-
  The range of the source indices, read from the precondition, and what NumPy's negative-index wrap makes of an
  index in that range; and a reduction by `and` of an array of ones.
-/
import proofs.«406836_j87514253623371_3_alg».proof.Pre_finite_inputs
import Idealize.ShloMosaic.Lib.ReduceAll
import Idealize.ShloMosaic.Lib.Affine
import Idealize.ShloMosaic.Lib.ValueIdx

noncomputable section

open Idealize.ShloMosaic

namespace Cert.Pre_finite_inputs.Range
open Cert.Pre_finite_inputs

/-- The rank-0 shape has one index. -/
instance : Subsingleton S_.Idx := ⟨fun a b => funext fun d => d.elim0⟩

/-- From the precondition: every source index, read signed, lies in [-100000, 100000). -/
theorem src_range [Facts] (a0 : FVec Ideal S100000x128 .f32) (a1 : IVec S2x640000 32) (a2 : FVec Ideal S640000 .f32) (a3 : FVec Ideal S128x128 .f32) (a4 : FVec Ideal S128 .f32) (a5 : FVec Ideal S128x128 .f32) (a6 : FVec Ideal S128 .f32)
    (h : fn (F := Ideal) a0 a1 a2 a3 a4 a5 a6 = fun _ => 1#1) (e : S640000.Idx) :
    (-100000 : Int) ≤ (shapeCast S640000 (extractStridedSlice S1x640000 ![0, 0] a1 Facts.slices_S2x640000_S1x640000_0_0) Facts.shapeCasts_S1x640000_S640000 e).toInt
    ∧ (shapeCast S640000 (extractStridedSlice S1x640000 ![0, 0] a1 Facts.slices_S2x640000_S1x640000_0_0) Facts.shapeCasts_S1x640000_S640000 e).toInt < (100000 : Int) := by
  have h0 := congrFun h ValueIdx.ix0
  unfold fn fn_part1 fn_part2 at h0
  -- the result is a chain of conjunctions; its last two conjuncts are the two tests of the source indices
  obtain ⟨h34, h39⟩ := IntOp.andi_eq_one.1 h0
  obtain ⟨-, h33⟩ := IntOp.andi_eq_one.1 h34
  have lo := Host.reduce_andi_all _ _ _ _ _ h33 e
  have hi := Host.reduce_andi_all _ _ _ _ _ h39 e
  have zlo : (4294867296#32 : BitVec 32).toInt = -100000 := by decide
  have zhi : (100000#32 : BitVec 32).toInt = 100000 := by decide
  have lo' := IntOp.cmpi_sge.1 lo
  have hi' := IntOp.cmpi_slt.1 hi
  exact ⟨zlo ▸ lo', zhi ▸ hi'⟩

end Cert.Pre_finite_inputs.Range

namespace IndexRange

/-- NumPy's negative-index wrap keeps an index of [-100000, 100000) inside [0, 99999]: the two in-bounds tests both answer 1. -/
theorem wrap_inb (u : BitVec 32) (h1 : (-100000 : Int) ≤ u.toInt) (h2 : u.toInt < (100000 : Int)) :
    IntOp.andi (IntOp.cmpi .sge (Scalar.select (IntOp.cmpi .slt u 0#32) (IntOp.addi u 100000#32) u) 0#32)
               (IntOp.cmpi .sle (Scalar.select (IntOp.cmpi .slt u 0#32) (IntOp.addi u 100000#32) u) 99999#32) = 1#1 := by
  have z0 : (0#32 : BitVec 32).toInt = 0 := by decide
  have z1 : (99999#32 : BitVec 32).toInt = 99999 := by decide
  have z2 : (100000#32 : BitVec 32).toInt = 100000 := by decide
  rw [IntOp.andi_eq_one, IntOp.cmpi_sge, IntOp.cmpi_sle, z0, z1]
  by_cases hneg : u.toInt < 0
  · -- a negative index: the wrap adds 100000, and the sum does not overflow
    have hc : IntOp.cmpi .slt u 0#32 = 1#1 := IntOp.cmpi_slt.2 (by rw [z0]; exact hneg)
    rw [hc, ValueIdx.select_one]
    have hs : (IntOp.addi u 100000#32).toInt = u.toInt + 100000 := by
      show (u + 100000#32).toInt = _
      rw [BitVec.toInt_add, z2, Int.bmod_def]
      omega
    omega
  · -- a nonnegative index is left as it is
    have hc : ¬ IntOp.cmpi .slt u 0#32 = 1#1 := fun hc => hneg (by have := IntOp.cmpi_slt.1 hc; rwa [z0] at this)
    have hs : Scalar.select (IntOp.cmpi .slt u 0#32) (IntOp.addi u 100000#32) u = u := if_neg hc
    rw [hs]
    omega

/-- A left fold by `and` over ones, from one, is one. -/
theorem foldl_andi_ones {ι : Type} (f : ι → BitVec 1) (hf : ∀ i, f i = 1#1) (l : List ι) :
    l.foldl (fun r n => IntOp.andi r (f n)) 1#1 = 1#1 := by
  induction l with
  | nil => rfl
  | cons a l ih =>
    rw [List.foldl_cons, hf a, show IntOp.andi 1#1 1#1 = (1#1 : BitVec 1) from by decide]
    exact ih

/-- A reduction by `and` of an array of ones, from the initial value one, is one at every result index. -/
theorem reduce_andi_ones {s t u : Shape} {axes : List (Fin s.rank)} (x : s.Idx → BitVec 1) (init : u.Idx → BitVec 1) (h : s.ReducesTo axes t) (hu : 0 < u.numel)
    (hx : ∀ i, x i = 1#1) (hinit : ∀ k, init k = 1#1) (j : t.Idx) : Host.reduce IntOp.andi x init h hu j = 1#1 := by
  rw [Host.reduce_eq_foldl, hinit]
  exact foldl_andi_ones x hx _

end IndexRange

end
-- ==== Proof.TakeGather.lean ====
/-
  `jnp.take` on in-range indices is the plain gather.

  `jnp.take` wraps a negative index by the table's height and fills the rows whose wrapped index falls outside
  `[0, 99999]`. When every source index lies in `[-100000, 100000)` the wrapped index is always in `[0, 99999]`, the
  in-bounds mask is one at every edge, and the selection returns the gathered row everywhere: `take` is the gather at
  the wrapped indices, which is what NumPy-style indexing `He[u]` computes.
-/
import proofs.«406836_j87514253623371_3_alg».proof.Proof.KernelHost
import proofs.«406836_j87514253623371_3_alg».proof.Proof.IndexRange

noncomputable section

namespace Cert.KernelIdeal.Host

open Cert.KernelIdeal Idealize.ShloMosaic

variable {F : FTy → Type} [FloatOps F]

/-- With every source index in `[-100000, 100000)`, the in-bounds mask of the wrapped indices is one at every edge. -/
theorem inb_one (u : IVec S640000 32) (hu : ∀ e, (-100000 : Int) ≤ (u e).toInt ∧ (u e).toInt < (100000 : Int)) (k : S640000.Idx) :
    inb (wrapIdx u) k = 1#1 := by
  unfold inb
  refine IndexRange.reduce_andi_ones _ _ _ _ (fun i => ?_) (fun _ => rfl) k
  exact IndexRange.wrap_inb _ (hu _).1 (hu _).2

/-- Then `take` is the gather at the wrapped indices. -/
theorem take_eq_gather (He : FVec F S100000x128 .f32) (u : IVec S640000 32)
    (hu : ∀ e, (-100000 : Int) ≤ (u e).toInt ∧ (u e).toInt < (100000 : Int)) :
    take He u = Host.gather gather_S100000x128_S640000x1_S640000x128_1_0_n_n_0_1_1128 He (wrapIdx u) := by
  funext i
  unfold take
  show Scalar.select (inb (wrapIdx u) _) _ _ = _
  rw [inb_one u hu, ValueIdx.select_one]

end Cert.KernelIdeal.Host

end
-- ==== Proof.RefLayers.lean ====
/-
  The reference, cut at its two dense layers.

  The reference computes `He = H · W_nodeᵀ + b_node`, gathers the rows of `He` at the edges' source nodes, scales them by
  the edge weights, adds them into the rows of the edges' destination nodes (`agg`), and returns
  `relu ((agg + He) · W_updᵀ + b_upd)`. Read at an entry, the first stage is the dense layer `lin` of `H` (the host's
  matrix product is the same sum over the contracted axis, the transposed weight read at the swapped entry, the bias
  broadcast over the rows), and the last stage is `relu` of `lin` of the entrywise sum `agg + He`. The middle — gather,
  scale, scatter-add — is kept as one function `mid` of `He`, the edge list and the edge weights: both programs apply it.
-/
import proofs.«406836_j87514253623371_3_alg».proof.Proof.Gen.ReferenceIdeal.Read
import proofs.«406836_j87514253623371_3_alg».proof.Proof.LibLinearRows
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx LinearRows

section Stages
variable {F : FTy → Type} [FloatOps F]

/-- Gather the rows of `He` at the (wrapped) source indices, scale each by its edge's weight, and add them into the rows
    named by the destination indices, from zero: the reference's message aggregation as a function of `He`. -/
def mid (He : (⟨S100000x128, .f32⟩ : BufTy).Contents (Elt F)) (x1 : (⟨S2x640000, .i32⟩ : BufTy).Contents (Elt F)) (x2 : (⟨S640000, .f32⟩ : BufTy).Contents (Elt F)) :
    (⟨S100000x128, .f32⟩ : BufTy).Contents (Elt F) :=
  Host.scatterAdd scatter_S100000x128_S640000x1_S640000x128_1_0_0_1 (val_main_v19 (F := F)) (val_main_v20 (F := F) x1)
    (mulf (val_main_v17 (F := F) x2) (Host.gather gather_S100000x128_S640000x1_S640000x128_1_0_n_n_0_1_1128 He (val_main_v15 (F := F) x1)))

/-- The reference's last stage as a function of the aggregate and `He`. -/
def upd (agg He : (⟨S100000x128, .f32⟩ : BufTy).Contents (Elt F)) (x5 : (⟨S128x128, .f32⟩ : BufTy).Contents (Elt F)) (x6 : (⟨S128, .f32⟩ : BufTy).Contents (Elt F)) :
    (⟨S100000x128, .f32⟩ : BufTy).Contents (Elt F) :=
  maximumf (addf (Host.dotGeneral dot_S100000x128_S128x128_S100000x128_1_0_0_1_n_n none (addf agg He) (val_main_v23 (F := F) x5)) (val_main_v26 (F := F) x6))
    (val_main_call0_v0 (F := F))

end Stages

/-- The reference's result is its last stage of its middle stage of its first stage. -/
theorem result_split (x0 : FVec Ideal S100000x128 .f32) (x1 : IVec S2x640000 32) (x2 : FVec Ideal S640000 .f32) (x3 : FVec Ideal S128x128 .f32)
    (x4 : FVec Ideal S128 .f32) (x5 : FVec Ideal S128x128 .f32) (x6 : FVec Ideal S128 .f32) :
    val_main_v28 (F := Ideal) x0 x1 x2 x3 x4 x5 x6
      = upd (F := Ideal) (mid (F := Ideal) (val_main_v4 (F := Ideal) x0 x3 x4) x1 x2) (val_main_v4 (F := Ideal) x0 x3 x4) x5 x6 := rfl

/-- The host's matrix product of a 100000-row matrix with a 128 × 128 one, at the entry of row `p` and column `j`. -/
theorem dot_apply (y0 : FVec Ideal S100000x128 .f32) (y1 : FVec Ideal S128x128 .f32) (p : Fin 100000) (j : Fin 128) :
    Host.dotGeneral (F := Ideal) (φ₁ := .f32) (φ₂ := .f32) dot_S100000x128_S128x128_S100000x128_1_0_0_1_n_n none y0 y1 (ix2 p j) = ∑ k : Fin 128, y0 (ix2 p k) * y1 (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p j) ((ValueIdx.contrEquiv1 dot_S100000x128_S128x128_S100000x128_1_0_0_1_n_n 128 rfl rfl).symm k) = ix2 p k := funext fun a => Fin.ext (by
    match a with
    | ⟨0, _⟩ => exact lhs_main_v1_0 _ _
    | ⟨1, _⟩ => exact (lhs_main_v1_1 _ _).trans hk)
  have er : dot_S100000x128_S128x128_S100000x128_1_0_0_1_n_n.rhsIdx (ix2 p j) ((ValueIdx.contrEquiv1 dot_S100000x128_S128x128_S100000x128_1_0_0_1_n_n 128 rfl rfl).symm k) = ix2 k j := funext fun a => Fin.ext (by
    match a with
    | ⟨0, _⟩ => exact (rhs_main_v1_0 _ _).trans hk
    | ⟨1, _⟩ => exact rhs_main_v1_1 _ _)
  rw [el, er]

/-- The bias broadcast over the rows, at an entry: the bias at the column. -/
theorem bias_apply (x : FVec Ideal S128 .f32) (p : Fin 100000) (j : Fin 128) :
    broadcastInDim S100000x128 ![0, 1] bcast_S1x128_S100000x128_0_1 (broadcastInDim S1x128 ![1] bcast_S128_S1x128_1 x) (ix2 p j) = x (ix1 j) := by
  refine (broadcastInDim_apply _ bcast_S1x128_S100000x128_0_1 _ (ix2 p j) (ix2 (0 : Fin 1) j) (fun a => match a with
    | ⟨0, _⟩ => by show 0 = if (1 : Nat) = 1 then 0 else p.val; rw [if_pos rfl]
    | ⟨1, _⟩ => by show j.val = if (128 : Nat) = 1 then 0 else j.val; rw [if_neg (by decide)])).trans ?_
  exact broadcastInDim_apply _ bcast_S128_S1x128_1 x (ix2 (0 : Fin 1) j) (ix1 j) (fun a => match a with
    | ⟨0, _⟩ => by show j.val = if (128 : Nat) = 1 then 0 else j.val; rw [if_neg (by decide)])

/-- The transposed weight at the entry `(k, j)` is the weight at `(j, k)`. -/
theorem transpose_apply' (x : FVec Ideal S128x128 .f32) (k j : Fin 128) :
    transpose S128x128 [1, 0] x transposes_S128x128_S128x128_1_0 (ix2 k j) = x (ix2 j k) :=
  transpose_apply [1, 0] x transposes_S128x128_S128x128_1_0 (ix2 k j) (ix2 j k) (fun b => match b with
    | ⟨0, _⟩ => rfl
    | ⟨1, _⟩ => rfl)

/-- The first stage is the dense layer of the features, for any spelling `Wt`, `b2` of the transposed weight and the
    bias row that has their entries. -/
theorem enc_eq_lin (x0 : FVec Ideal S100000x128 .f32) (x3 : FVec Ideal S128x128 .f32) (x4 : FVec Ideal S128 .f32)
    (Wt : (⟨2, ![128, 128]⟩ : Shape).Idx → EReal) (b2 : (⟨2, ![1, 128]⟩ : Shape).Idx → EReal)
    (hW : ∀ k j : Fin 128, Wt (ix2 k j) = x3 (ix2 j k)) (hb : ∀ j : Fin 128, b2 (ix2 (0 : Fin 1) j) = x4 (ix1 j)) :
    val_main_v4 (F := Ideal) x0 x3 x4 = lin x0 Wt b2 := by
  funext i
  obtain ⟨p, j, rfl⟩ : ∃ (p : Fin 100000) (j : Fin 128), i = ix2 p j := ⟨i 0, i 1, eq_ix2 i⟩
  rw [lin_apply, hb]
  show Host.dotGeneral (F := Ideal) (φ₁ := .f32) (φ₂ := .f32) dot_S100000x128_S128x128_S100000x128_1_0_0_1_n_n none x0 (transpose S128x128 [1, 0] x3 transposes_S128x128_S128x128_1_0) (ix2 p j)
      + broadcastInDim S100000x128 ![0, 1] bcast_S1x128_S100000x128_0_1 (broadcastInDim S1x128 ![1] bcast_S128_S1x128_1 x4) (ix2 p j) = _
  rw [dot_apply, bias_apply]
  exact congrArg (· + x4 (ix1 j)) (Finset.sum_congr rfl fun k _ => by rw [transpose_apply', hW])

/-- The last stage is `relu` of the dense layer of the entrywise sum of the aggregate and `He`. -/
theorem upd_eq_relu_lin (agg He : FVec Ideal S100000x128 .f32) (x5 : FVec Ideal S128x128 .f32) (x6 : FVec Ideal S128 .f32)
    (Wt : (⟨2, ![128, 128]⟩ : Shape).Idx → EReal) (b2 : (⟨2, ![1, 128]⟩ : Shape).Idx → EReal)
    (hW : ∀ k j : Fin 128, Wt (ix2 k j) = x5 (ix2 j k)) (hb : ∀ j : Fin 128, b2 (ix2 (0 : Fin 1) j) = x6 (ix1 j)) :
    upd (F := Ideal) agg He x5 x6 = relu (lin (fun i => agg i + He i) Wt b2) := by
  funext i
  obtain ⟨p, j, rfl⟩ : ∃ (p : Fin 100000) (j : Fin 128), i = ix2 p j := ⟨i 0, i 1, eq_ix2 i⟩
  rw [relu_apply, lin_apply, hb]
  show max (Host.dotGeneral (F := Ideal) (φ₁ := .f32) (φ₂ := .f32) dot_S100000x128_S128x128_S100000x128_1_0_0_1_n_n none (addf (F := Ideal) agg He) (transpose S128x128 [1, 0] x5 transposes_S128x128_S128x128_1_0) (ix2 p j)
        + broadcastInDim S100000x128 ![0, 1] bcast_S1x128_S100000x128_0_1 (broadcastInDim S1x128 ![1] bcast_S128_S1x128_1 x6) (ix2 p j))
      (Ideal.ofBits .f32 0x00000000#32) = _
  rw [dot_apply, bias_apply, Ideal.ofBits_zero_f32]
  refine congrArg (max · 0) (congrArg (· + x6 (ix1 j)) (Finset.sum_congr rfl fun k _ => ?_))
  rw [transpose_apply', hW]
  rfl

end Cert.ReferenceIdeal.Layers

end
-- ==== Proof.KernelValue.lean ====
/-
  The kernel program's result, as the reference's function of the arguments.

  After the run the result buffer holds what the second kernel's write-backs leave: `relu` of the dense layer of
  `agg + He`, where `He` is what the first kernel left — the dense layer of the node features — and `agg` is the host's
  aggregation of `jnp.take(He, u)` scaled by the edge weights. Under the precondition every source index `u` lies in
  `[-100000, 100000)`, so `jnp.take` is the plain gather at the wrapped indices, and the aggregation is the reference's
  own middle stage applied to the same `He`. Stage by stage the result is the reference's result term.
-/
import proofs.«406836_j87514253623371_3_alg».proof.Defs
import proofs.«406836_j87514253623371_3_alg».proof.Proof.Gen.KernelIdeal.Frame
import proofs.«406836_j87514253623371_3_alg».proof.Proof.Gen.Pre_finite_inputs
import proofs.«406836_j87514253623371_3_alg».proof.Proof.EncArray
import proofs.«406836_j87514253623371_3_alg».proof.Proof.UpdArray
import proofs.«406836_j87514253623371_3_alg».proof.Proof.KernelHost
import proofs.«406836_j87514253623371_3_alg».proof.Proof.TakeGather
import proofs.«406836_j87514253623371_3_alg».proof.Proof.RefLayers
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.ShloMosaic.ValueIdx LinearRows
open Idealize.SL.Sem
open Cert.ReferenceIdeal.Read (val_main_v4 val_main_v28)
open Cert.ReferenceIdeal.Layers (mid upd)

variable (m : (ℓ : Loc nD τ sig) → Buf (Elt Ideal) ℓ) (ρ : Dev nD → PrngReg)

/-- The seven argument arrays at launch. -/
abbrev x0 (c : Dev nD) : FVec Ideal S100000x128 .f32 := m ((c : Thread nD τ).loc main_arg0)
abbrev x1 (c : Dev nD) : IVec S2x640000 32 := m ((c : Thread nD τ).loc main_arg1)
abbrev x2 (c : Dev nD) : FVec Ideal S640000 .f32 := m ((c : Thread nD τ).loc main_arg2)
abbrev x3 (c : Dev nD) : FVec Ideal S128x128 .f32 := m ((c : Thread nD τ).loc main_arg3)
abbrev x4 (c : Dev nD) : FVec Ideal S128 .f32 := m ((c : Thread nD τ).loc main_arg4)
abbrev x5 (c : Dev nD) : FVec Ideal S128x128 .f32 := m ((c : Thread nD τ).loc main_arg5)
abbrev x6 (c : Dev nD) : FVec Ideal S128 .f32 := m ((c : Thread nD τ).loc main_arg6)

/-- What the first kernel leaves in its result array is the reference's `He`. -/
theorem enc_array (c : Dev nD) :
    W2 m ρ c (Proc.devRef .tc main_v2) = val_main_v4 (F := Ideal) (x0 m c) (x3 m c) (x4 m c) := by
  refine (W2_arr m ρ c 3).trans ?_
  rw [EncArray.final (V1 m ρ) c]
  have e0 : EncArray.feat (V1 m ρ) c = x0 m c := Host.V1_arg0 m ρ c
  have e1 : EncArray.wT (V1 m ρ) c = transpose S128x128 [1, 0] (x3 m c) transposes_S128x128_S128x128_1_0 := Host.V1_v0 m ρ c
  have e2 : EncArray.bias (V1 m ρ) c = shapeCast S1x128 (x4 m c) shapeCasts_S128_S1x128 := Host.V1_v1 m ρ c
  rw [e0, e1, e2]
  exact (Cert.ReferenceIdeal.Layers.enc_eq_lin (x0 m c) (x3 m c) (x4 m c) _ _
    (fun k j => transpose_ix2_apply _ _ k j) (fun j => shapeCast_a_1a_apply _ _ 0 j)).symm

/-- The result buffer at the end of the run is the reference's result term of the launch arguments. -/
theorem result_value (hpre : Cert.Pre_KernelIdeal m) (c : Dev nD) :
    W6 m ρ c (Proc.devRef .tc main_v16)
      = val_main_v28 (F := Ideal) (x0 m c) (x1 m c) (x2 m c) (x3 m c) (x4 m c) (x5 m c) (x6 m c) := by
  refine (W6_arr m ρ c 4).trans ?_
  rw [UpdArray.final (V5 m ρ) c, Cert.ReferenceIdeal.Layers.result_split]
  have hHe : UpdArray.enc (V5 m ρ) c = val_main_v4 (F := Ideal) (x0 m c) (x3 m c) (x4 m c) :=
    (Host.V5_v2 m ρ c).trans (enc_array m ρ c)
  have hu : ∀ e, (-100000 : Int) ≤ (Host.srcIdx (x1 m c) e).toInt ∧ (Host.srcIdx (x1 m c) e).toInt < (100000 : Int) :=
    fun e => Cert.Pre_finite_inputs.Range.src_range _ _ _ _ _ _ _ (hpre c) e
  have hagg : UpdArray.agg (V5 m ρ) c = mid (F := Ideal) (val_main_v4 (F := Ideal) (x0 m c) (x3 m c) (x4 m c)) (x1 m c) (x2 m c) := by
    refine (Host.V5_v13 m ρ c).trans ?_
    rw [Host.W2_arg1, Host.W2_arg2, enc_array m ρ c, Host.take_eq_gather _ _ hu]
    rfl
  have hw : UpdArray.wT (V5 m ρ) c = transpose S128x128 [1, 0] (x5 m c) transposes_S128x128_S128x128_1_0 :=
    (Host.V5_v14 m ρ c).trans (by rw [Host.W2_arg5])
  have hb : UpdArray.bias (V5 m ρ) c = shapeCast S1x128 (x6 m c) shapeCasts_S128_S1x128 :=
    (Host.V5_v15 m ρ c).trans (by rw [Host.W2_arg6])
  show relu (lin (fun i => UpdArray.agg (V5 m ρ) c i + UpdArray.enc (V5 m ρ) c i) (UpdArray.wT (V5 m ρ) c) (UpdArray.bias (V5 m ρ) c)) = _
  rw [hagg, hHe, hw, hb]
  exact (Cert.ReferenceIdeal.Layers.upd_eq_relu_lin _ _ (x5 m c) (x6 m c) _ _
    (fun k j => transpose_ix2_apply _ _ k j) (fun j => shapeCast_a_1a_apply _ _ 0 j)).symm

end Cert.KernelIdeal.Result

end
-- ==== Proof.lean ====
/- The proof of `Cert.Claim`: a message-passing layer on a graph of 100000 nodes and 640000 edges.

   Both programs compute `relu ((agg + He) · W_updᵀ + b_upd)` with `He = H · W_nodeᵀ + b_node` and `agg` the sum, into each
   edge's destination row, of the edge's weight times the row of `He` at the edge's source. The kernel program computes
   the two dense layers in two tiled kernels (row blocks of 10000 and of 5000, a matrix-unit product from a zero
   accumulator per block) and the aggregation on the host with `jnp.take`; the reference computes everything on the
   host, the source rows by NumPy-style indexing. On the extended reals a change of float format is the identity and a
   blocked product is the product, so the dense layers agree; `jnp.take` differs from indexing only where a source index
   is outside `[-100000, 100000)` (it fills the row, indexing clamps), which the precondition excludes. The frames are the
   generated ones; the kernel program's result is read off the launch over the generated segments (Proof/KernelRun.lean)
   and identified with the reference's result term stage by stage (Proof/KernelValue.lean). -/
import proofs.«406836_j87514253623371_3_alg».proof.Defs
import proofs.«406836_j87514253623371_3_alg».proof.Proof.Gen.Kernel
import proofs.«406836_j87514253623371_3_alg».proof.Proof.Gen.Kernel.Skeleton
import proofs.«406836_j87514253623371_3_alg».proof.Proof.Gen.Kernel.Launch
import proofs.«406836_j87514253623371_3_alg».proof.Proof.Gen.Kernel.Points
import proofs.«406836_j87514253623371_3_alg».proof.Proof.Gen.Kernel.Frame
import proofs.«406836_j87514253623371_3_alg».proof.Proof.Gen.KernelIdeal
import proofs.«406836_j87514253623371_3_alg».proof.Proof.Gen.KernelIdeal.Skeleton
import proofs.«406836_j87514253623371_3_alg».proof.Proof.Gen.KernelIdeal.Launch
import proofs.«406836_j87514253623371_3_alg».proof.Proof.Gen.KernelIdeal.Points
import proofs.«406836_j87514253623371_3_alg».proof.Proof.Gen.KernelIdeal.Frame
import proofs.«406836_j87514253623371_3_alg».proof.Proof.Gen.ReferenceIdeal
import proofs.«406836_j87514253623371_3_alg».proof.Proof.Gen.ReferenceIdeal.Run
import proofs.«406836_j87514253623371_3_alg».proof.Proof.Gen.ReferenceIdeal.Read
import proofs.«406836_j87514253623371_3_alg».proof.Proof.Gen.Pre_finite_inputs
import proofs.«406836_j87514253623371_3_alg».proof.Proof.KernelRun
import proofs.«406836_j87514253623371_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the reference's result term of those
    arguments in their result buffers: the kernel program by `result_value`, under the precondition on the source
    indices; the reference by its run. -/
theorem algebraic : Cert.algebraic_KernelIdeal_ReferenceIdeal := by
  intro m ρ m' ρ' hpre hagree
  refine ⟨fun c => Cert.ReferenceIdeal.Read.val_main_v28 (F := Ideal) (Cert.KernelIdeal.Result.x0 m c) (Cert.KernelIdeal.Result.x1 m c)
    (Cert.KernelIdeal.Result.x2 m c) (Cert.KernelIdeal.Result.x3 m c) (Cert.KernelIdeal.Result.x4 m c) (Cert.KernelIdeal.Result.x5 m c)
    (Cert.KernelIdeal.Result.x6 m c), ?_, ?_⟩
  · exact (θ_run Cert.KernelIdeal.defs _ _).mono
      (fun r h c => ⟨(h c).1.trans (Cert.KernelIdeal.Result.result_value m ρ hpre c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
